-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S65536x1024 : Shape := ⟨2, ![65536, 1024]⟩
abbrev S1536x1024 : Shape := ⟨2, ![1536, 1024]⟩
abbrev S1536 : Shape := ⟨1, ![1536]⟩
abbrev S1536x1 : Shape := ⟨2, ![1536, 1]⟩

abbrev nBuf : Space → Nat
  | .hbm => 2
  | .vmem => 4
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .local _ .vmem, ⟨0, _⟩ => ⟨S1536x1024, .f32⟩
  | .local _ .vmem, ⟨1, _⟩ => ⟨S1536x1024, .f32⟩
  | .local _ .vmem, ⟨2, _⟩ => ⟨S1536x1024, .f32⟩
  | .local _ .vmem, ⟨3, _⟩ => ⟨S1536x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1536x1024_S1536x1024_0_0 : ∀ a, (![0, 0] : Fin 2 → Nat) a + S1536x1024.size a ≤ S1536x1024.size a
  h_S1536x1024 : 0 < S1536x1024.numel
  reduces_S1536x1024_S1536 : S1536x1024.Reduces [1] S1536
  shapeCasts_S1536_S1536x1 : S1536.ShapeCasts S1536x1
  shapeCasts_S1536x1_S1536x1 : S1536x1.ShapeCasts S1536x1
  broadcasts_S1536x1_S1536x1024 : S1536x1.Broadcasts S1536x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1536x1024.size a < S65536x1024.size a
  hwx0_0 : ∀ i : grid0.Coords, EltTy.bits .f32 = 32 ∨ (Rect.unit (s := S65536x1024) (fun a => cc0_transform_0 i a * S1536x1024.size a) (fun a => (Pipeline.Clip.of (cc0_transform_0 i a) (S1536x1024.size a) (S65536x1024.size a)).extent (S1536x1024.size a)) fun a => Pipeline.Clip.inb (Pipeline.Clip.ok_of (hstart0_0 i a))).WholeWords (EltTy.packing .f32)
  hwxs0_0 : ∀ i : grid0.Coords, EltTy.bits .f32 = 32 ∨ (Rect.unit (s := S1536x1024) (fun _ => 0) (fun a => (Pipeline.Clip.of (cc0_transform_0 i a) (S1536x1024.size a) (S65536x1024.size a)).extent (S1536x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1536x1024.size a < S65536x1024.size a
  hwx0_1 : ∀ i : grid0.Coords, EltTy.bits .f32 = 32 ∨ (Rect.unit (s := S65536x1024) (fun a => cc0_transform_1 i a * S1536x1024.size a) (fun a => (Pipeline.Clip.of (cc0_transform_1 i a) (S1536x1024.size a) (S65536x1024.size a)).extent (S1536x1024.size a)) fun a => Pipeline.Clip.inb (Pipeline.Clip.ok_of (hstart0_1 i a))).WholeWords (EltTy.packing .f32)
  hwxs0_1 : ∀ i : grid0.Coords, EltTy.bits .f32 = 32 ∨ (Rect.unit (s := S1536x1024) (fun _ => 0) (fun a => (Pipeline.Clip.of (cc0_transform_1 i a) (S1536x1024.size a) (S65536x1024.size a)).extent (S1536x1024.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_arg0) S1536x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S1536x1024.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S_ : Shape := ⟨0, ![]⟩
abbrev S65536 : Shape := ⟨1, ![65536]⟩
abbrev S65536x1 : Shape := ⟨2, ![65536, 1]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S65536, .f32⟩
  | .hbm, ⟨3, _⟩ => ⟨S65536x1, .f32⟩
  | .hbm, ⟨4, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S65536x1_S65536x1024_0_1 : S65536x1.BroadcastsInDim S65536x1024 (![0, 1] : Fin 2 → Fin S65536x1024.rank)

variable [Facts₀]

class Facts : Prop extends Facts₀ where

variable [Facts]
-- ==== Proof.BodyWords.lean ====
/-
  The kernel body at one grid point, as a Hoare triple at any float instance.

  The body reads its whole input staging block `x` (1536 rows of 1024 lanes), takes each row's sum along the
  lanes, repeats that sum along the row, reads the output staging block (a value nothing uses) and overwrites
  the whole output staging block with the repeated sums. So from the input block at `x` and the output block at
  anything, it ends with the input block still at `x` and the output block at `stored x`: the single store's
  payload laid over the whole block, which is the payload itself (`stored_eq`).
-/
import proofs.«405345_j11218454577795_3_alg».proof.Proof.Gen.Kernel.Frame
import proofs.«405345_j11218454577795_3_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one rectangle the body touches: the whole 1536 × 1024 staging block. -/
abbrev whole : Rect S1536x1024 := Rect.unit (s := S1536x1024) ![0, 0] S1536x1024.size inb_S1536x1024_S1536x1024_0_0

/-- What the output staging block holds after the body, given the input staging block `x`: the one store's
    payload (each row's lane sum, repeated along the row) laid over the whole block. -/
def stored (x : Vec F S1536x1024 .f32) : Vec F S1536x1024 .f32 :=
  View.canon [⟨whole, k0_pay1 (View.ld x whole)⟩]

/-- The one store covers the block: its rectangle is the whole block. -/
theorem covers (p : Vec F S1536x1024 .f32) (y : S1536x1024.Idx) :
    ∃ pc ∈ ([⟨whole, p⟩] : List (View.Piece (Elt F) S1536x1024 .f32)), y ∈ pc.1.set :=
  View.cover_of_tiled [⟨whole, p⟩] S1536x1024.size (by rfl) y

/-- The offsets of the body's rectangle are all zero. -/
theorem whole_off : (![0, 0] : Fin 2 → Nat) = fun _ => 0 := funext fun a => by fin_cases a <;> rfl

/-- Laid over the whole block, the payload is the block's new contents: row sums of `x`, repeated along rows. -/
theorem stored_eq (x : Vec F S1536x1024 .f32) : stored x = k0_pay1 x := by
  unfold stored
  rw [View.canon_unit_zero whole_off]
  simp only [View.ld_unit_zero (S := S1536x1024) whole_off]

set_option maxHeartbeats 1000000 in
/-- The body on whole staging memrefs: the input's at contents `x`, the output's at anything. It runs, faults
    nowhere, leaves the input's at `x` and the output's at `stored x`. -/
theorem sound_kernel (c : Dev nD) (E : Set ℕ) (i : grid0.Coords)
    (arg1 : Memref sig .tc .vmem S1536x1024 .f32) (harg1 : arg1.IsWhole)
    (arg2 : Memref sig .tc .vmem S1536x1024 .f32) (harg2 : arg2.IsWhole)
    (x : Vec F S1536x1024 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (stored x)) -∗ K ⟨⟩))
      ⊢ wp frame (wpE (defs₀ (F := F)) Variants.none c none) E (cc0__kan_sum_kernel i arg1 harg1 arg2 harg2) K := by
  simp only [cc0__kan_sum_kernel_eq_skeleton]; unfold cc0__kan_sum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers _)

end Cert.Kernel.Body

end
-- ==== Proof.FrameWords.lean ====
/-
  The frame of the word-level program: it runs to the end, nothing faults, the argument array ends unchanged.

  A frame says nothing about the result array, so the pipeline's proof data is relational and constrains nothing
  of what the body leaves in a staging buffer: whatever the input block holds past the array's end on the last,
  overhanging grid point (the clipped fetch fills only the 1024 rows inside the array; the other 512 hold words
  nothing names), the body is two whole loads, a pure computation and a whole store, which run from any contents.
  The argument array is an input window's array, never written back, so it ends as it began.
-/
import proofs.«405345_j11218454577795_3_alg».proof.Proof.BodyWords

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Proof data that names the arrays at the region's entry and leaves the staging buffers' contents free. -/
def free (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at a grid point from any contents `y0`, `y1` of the two current staging buffers: it runs and hands
    both back at some contents. -/
theorem free_point (c : Dev nD) (t : Fin cfg0.N) (y0 y1 : Vec F S1536x1024 .f32) :
    iprop((free m c).Φ t.castSucc ∗ (free m c).owesAt () t.castSucc
        ∗ owns (c : Thread nD τ) (st0_0 t) fullShare y0 ∗ owns (c : Thread nD τ) (st0_1 t) fullShare y1)
      ⊢ wp frame (wpE (defs₀ (F := F)) Variants.none c none) Set.univ (bodyAt0 t) (fun _ =>
          iprop((free m c).Φ t.succ ∗ (free m c).owesAt () t.succ
            ∗ (∃ X, ⌜True⌝ ∗ owns (c : Thread nD τ) (st0_0 t) fullShare X)
            ∗ (∃ X, ⌜True⌝ ∗ owns (c : Thread nD τ) (st0_1 t) fullShare X))) := by
  unfold bodyAt0
  rw [show (free m c).Φ t.succ = (free m c).Φ t.castSucc from rfl,
    show (free m c).owesAt () t.succ = (free m c).owesAt () t.castSucc from rfl]
  iintro ⟨HΦ, Ho, H0, H1⟩
  iapply (sound_kernel c Set.univ (grid0.coords t) _ _ _ _ y0 _)
  isplitl [H0]; · iexact H0
  isplitl [H1]; · iexists _; iexact H1
  iintro ⟨H0, H1⟩
  isplitl [HΦ]; · iexact HΦ
  isplitl [Ho]; · iexact Ho
  isplitl [H0]
  · iexists _; isplitr; · ipureintro; trivial
    iexact H0
  · iexists _; isplitr; · ipureintro; trivial
    iexact H1

/-- The pipeline's body obligation for the free proof data, at every point. -/
theorem free_body (c : Dev nD) : (free m c).BodyObligation (defs₀ (F := F)) Variants.none () Set.univ := fun t Y _ => by
  rw [bigSep_W0, bigSep_W0]
  exact free_point m c t (Y 0) (Y 1)

set_option backward.isDefEq.respectTransparency.types false in
/-- Every weakly fair execution of the program terminates, faulting nowhere; each windowed array ends at contents
    the free proof data allows and every other buffer as it began. -/
theorem free_run : θ_run defs (onTc (τ := τ) (main (F := F))) (s₀ m ρ) (Pipeline.RDat.FramePost cfg0 (free m) (V m)) :=
  Pipeline.RDat.θ_run_frame cfgs (0 : Fin 1) launch0 defs₀ Variants.none (free m) m ρ main
    (hbody := free_body m) (hshare := fun c => (free m c).share_full fun _ => rfl)
    (howed := fun _ _ => rfl) (V := V m) (hmain := hmain m Variants.none) (hA := fun _ _ => rfl) (hΦ := fun _ _ => rfl)

/-- The argument array is never written back, so the only contents it may end at are those it began with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => by
    have h0 := (h c).1 0
    rw [Pipeline.RDat.ArrAt_in (free m c) 0 rfl] at h0
    exact h0) (free_run m ρ)

end Cert.Kernel.Body

end
-- ==== Proof.Body.lean ====
/-
  The kernel body at one grid point, as a Hoare triple at any float instance.

  The body reads its whole input staging block `x` (1536 rows of 1024 lanes), takes each row's sum along the
  lanes, repeats that sum along the row, reads the output staging block (a value nothing uses) and overwrites
  the whole output staging block with the repeated sums. So from the input block at `x` and the output block at
  anything, it ends with the input block still at `x` and the output block at `stored x`: the single store's
  payload laid over the whole block, which is the payload itself (`stored_eq`).
-/
import proofs.«405345_j11218454577795_3_alg».proof.Proof.Gen.KernelIdeal.Frame
import proofs.«405345_j11218454577795_3_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one rectangle the body touches: the whole 1536 × 1024 staging block. -/
abbrev whole : Rect S1536x1024 := Rect.unit (s := S1536x1024) ![0, 0] S1536x1024.size inb_S1536x1024_S1536x1024_0_0

/-- What the output staging block holds after the body, given the input staging block `x`: the one store's
    payload (each row's lane sum, repeated along the row) laid over the whole block. -/
def stored (x : Vec F S1536x1024 .f32) : Vec F S1536x1024 .f32 :=
  View.canon [⟨whole, k0_pay1 (View.ld x whole)⟩]

/-- The one store covers the block: its rectangle is the whole block. -/
theorem covers (p : Vec F S1536x1024 .f32) (y : S1536x1024.Idx) :
    ∃ pc ∈ ([⟨whole, p⟩] : List (View.Piece (Elt F) S1536x1024 .f32)), y ∈ pc.1.set :=
  View.cover_of_tiled [⟨whole, p⟩] S1536x1024.size (by rfl) y

/-- The offsets of the body's rectangle are all zero. -/
theorem whole_off : (![0, 0] : Fin 2 → Nat) = fun _ => 0 := funext fun a => by fin_cases a <;> rfl

/-- Laid over the whole block, the payload is the block's new contents: row sums of `x`, repeated along rows. -/
theorem stored_eq (x : Vec F S1536x1024 .f32) : stored x = k0_pay1 x := by
  unfold stored
  rw [View.canon_unit_zero whole_off]
  simp only [View.ld_unit_zero (S := S1536x1024) whole_off]

set_option maxHeartbeats 1000000 in
/-- The body on whole staging memrefs: the input's at contents `x`, the output's at anything. It runs, faults
    nowhere, leaves the input's at `x` and the output's at `stored x`. -/
theorem sound_kernel (c : Dev nD) (E : Set ℕ) (i : grid0.Coords)
    (arg1 : Memref sig .tc .vmem S1536x1024 .f32) (harg1 : arg1.IsWhole)
    (arg2 : Memref sig .tc .vmem S1536x1024 .f32) (harg2 : arg2.IsWhole)
    (x : Vec F S1536x1024 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (stored x)) -∗ K ⟨⟩))
      ⊢ wp frame (wpE (defs₀ (F := F)) Variants.none c none) E (cc0__kan_sum_kernel i arg1 harg1 arg2 harg2) K := by
  simp only [cc0__kan_sum_kernel_eq_skeleton]; unfold cc0__kan_sum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers _)

end Cert.KernelIdeal.Body

end
-- ==== Proof.RowSums.lean ====
/-
  The body's arithmetic at the ideal values, read at one entry.

  The payload the body stores is: the lane sum of each of the block's 1536 rows (a vector of 1536), recast as a
  column (1536 × 1), recast as itself, and repeated along each row (1536 × 1024). At the ideal values the lane
  sum of row `r` is the finite sum over the 1024 lanes `k` of the block's entry `(r, k)`; so entry `(r, q)` of
  the payload is that sum, whatever the lane `q`. In particular row `r` of the payload depends on row `r` of the
  block alone, which is what lets the rows past the array's end on the last grid point hold anything.
-/
import proofs.«405345_j11218454577795_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.RowSums

open Cert.KernelIdeal Cert.KernelIdeal.Gen
open Idealize.ShloMosaic Idealize.ShloMosaic.ValueIdx

/-- Entry `(r, k)` of a 1536 × 1024 block. -/
abbrev entry (r : Fin 1536) (k : Fin 1024) : S1536x1024.Idx := fun a => match a with
  | ⟨0, _⟩ => ⟨r.val, r.isLt⟩
  | ⟨1, _⟩ => ⟨k.val, k.isLt⟩

/-- Entry `(r, 0)` of a 1536 × 1 column. -/
abbrev colEntry (r : Fin 1536) : S1536x1.Idx := fun a => match a with
  | ⟨0, _⟩ => ⟨r.val, r.isLt⟩
  | ⟨1, _⟩ => ⟨0, Nat.one_pos⟩

/-- Entry `r` of a vector of 1536. -/
abbrev vecEntry (r : Fin 1536) : S1536.Idx := fun a => match a with
  | ⟨0, _⟩ => ⟨r.val, r.isLt⟩

/-- The lane sum of a block at the ideal values, at row `r`: the sum of the row's 1024 entries. -/
theorem laneSum_apply (x : FVec Ideal S1536x1024 .f32) (h : S1536x1024.Reduces [1] S1536) (hφ : FKind.Formats .f32)
    (hacc : (0x00000000#32 : BitVec 32) = 0x00000000#32) (r : Fin 1536) :
    multiReduction (F := Ideal) .add [1] S1536 x 0x00000000#32 h hφ hacc (vecEntry r) = ∑ k : Fin 1024, x (entry r k) := by
  refine (Ideal.multiReduction_add_single x 0x00000000#32 h hφ hacc (vecEntry r)).trans ?_
  refine Finset.sum_congr rfl fun k _ => congrArg x (funext fun a => Fin.ext ?_)
  match a with
  | ⟨0, _⟩ => rfl
  | ⟨1, _⟩ => rfl

/-- Entry `j` of the stored payload at the ideal values: the sum of the block's row `j 0`. -/
theorem payload_apply (x : Vec Ideal S1536x1024 .f32) (j : S1536x1024.Idx) :
    k0_pay1 (F := Ideal) x j = ∑ k : Fin 1024, x (entry (j 0) k) := by
  unfold k0_pay1
  refine (broadcastTo_apply _ broadcasts_S1536x1_S1536x1024 j (colEntry (j 0)) (fun a => ?_)).trans ?_
  · match a with
    | ⟨0, _⟩ => show (j 0).val = if (1536 : Nat) = 1 then 0 else (j 0).val; rw [if_neg (by decide)]
    | ⟨1, _⟩ => show 0 = if (1 : Nat) = 1 then 0 else (j 1).val; rw [if_pos rfl]
  rw [shapeCast_self]
  refine (shapeCast_apply _ shapeCasts_S1536_S1536x1 (colEntry (j 0)) (vecEntry (j 0)) ?_).trans ?_
  · rw [Shape.rowMajor_val_one, Shape.rowMajor_val_two]; show (j 0).val = (j 0).val * 1 + 0; omega
  exact laneSum_apply x _ _ _ (j 0)

end Cert.KernelIdeal.RowSums

end
-- ==== Proof.Blocks.lean ====
/-
  The idealized kernel, grid point by grid point, with the staging buffers' contents named.

  The grid has 43 points; point `t` works on rows `1536·t … 1536·t + 1535` of the 65536 × 1024 argument `x`. The
  first 42 blocks lie inside the array; the last one starts at row 64512 and overhangs the array's end by 512
  rows, so its fetch fills only the buffer's first 1024 rows and its write-back writes only those. What the other
  512 rows of the input buffer hold is not named (`d` below), and the body sums them too — but each row of what the
  body stores depends on the same row of its input alone (`RowSums.payload_apply`), so on the rows inside the
  array the stored block is, whatever `d` is, the block of ONE whole-array function: `rowSums x`, whose entry
  `(r, q)` is the sum of `x`'s row `r` (`stored_rows`). The proof data names each buffer after the body by that
  part and fills the rest with zero; the pipeline's obligation asks no more of a window whose blocks are clipped.
-/
import proofs.«405345_j11218454577795_3_alg».proof.Proof.Body
import proofs.«405345_j11218454577795_3_alg».proof.Proof.RowSums

set_option maxRecDepth 16384

noncomputable section

namespace Cert.KernelIdeal.Blocks

open Cert.KernelIdeal Cert.KernelIdeal.Gen Cert.KernelIdeal.Body Cert.KernelIdeal.RowSums
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The function the kernel computes -/

/-- Entry `(r, k)` of the 65536 × 1024 array. -/
abbrev arrEntry (r : Fin 65536) (k : Fin 1024) : S65536x1024.Idx := fun a => match a with
  | ⟨0, _⟩ => ⟨r.val, r.isLt⟩
  | ⟨1, _⟩ => ⟨k.val, k.isLt⟩

/-- Each row's sum, repeated along the row: entry `(r, q)` is the sum over the lanes `k` of `x (r, k)`. -/
def rowSums (x : Vec Ideal S65536x1024 .f32) : Vec Ideal S65536x1024 .f32 :=
  fun i => ∑ k : Fin 1024, x (arrEntry (i 0) k)

/-- The argument array as the region finds it. -/
abbrev xarr (c : Dev nD) : Vec Ideal S65536x1024 .f32 := V m c main_arg0

/-! ## Where the blocks lie -/

/-- The two windows move together: at every point the same block row, lane block 0, the same number of rows
    inside the array, and all 1024 lanes. -/
theorem idx_facts : ∀ t : Fin cfg0.N,
    win0_0.index t 0 = win0_1.index t 0 ∧ win0_0.index t 1 = 0
      ∧ win0_0.xsize (grid0.coords t) 0 = win0_1.xsize (grid0.coords t) 0 ∧ win0_0.xsize (grid0.coords t) 1 = 1024 :=
  (by decide +kernel : ∀ t : Fin grid0.N, _)

/-! ## The stored block on the rows inside the array -/

/-- On the rows the write-back moves, what the body stores from a just-fetched input buffer — the array's block on
    the rows inside the array, `d` on the others — is the block of `rowSums x`, whatever `d` is. -/
theorem stored_rows (c : Dev nD) (t : Fin cfg0.N) (d : Vec Ideal S1536x1024 .f32) :
    win0_1.cut (grid0.coords t) (stored (F := Ideal) (win0_0.fill (grid0.coords t) d (iblk m c 0 t)))
      = (win0_1.blk t).view.read (Elt Ideal) (rowSums (xarr m c)) := by
  obtain ⟨hi0, hi1, hx0, hx1⟩ := idx_facts t
  funext j
  rw [stored_eq]
  show k0_pay1 (F := Ideal) _ (win0_1.xinj (grid0.coords t) j) = _
  rw [payload_apply, View.read_apply]
  show _ = rowSums (xarr m c) ((win0_1.blk t).view.emb j)
  unfold rowSums
  refine Finset.sum_congr rfl fun k _ => ?_
  -- entry (j 0, k) of the buffer is one the fetch filled: row j 0 is inside the array, and every lane is
  let j' : (win0_0.xblock (grid0.coords t)).Idx := fun a => match a with
    | ⟨0, _⟩ => ⟨(j 0).val, by
        have := (j 0).isLt
        show (j 0).val < win0_0.xsize (grid0.coords t) 0
        rw [hx0]; exact this⟩
    | ⟨1, _⟩ => ⟨k.val, by
        show k.val < win0_0.xsize (grid0.coords t) 1
        rw [hx1]; exact k.isLt⟩
  have e : entry (win0_1.xinj (grid0.coords t) j 0) k = win0_0.xinj (grid0.coords t) j' :=
    funext fun a => Fin.ext (by match a with | ⟨0, _⟩ => rfl | ⟨1, _⟩ => rfl)
  rw [e, Window.fill_xinj]
  unfold iblk
  rw [View.read_apply]
  show V m c main_arg0 ((win0_0.blk t).view.emb j') = V m c main_arg0 (arrEntry (((win0_1.blk t).view.emb j) 0) k)
  refine congrArg _ (funext fun a => Fin.ext ?_)
  match a with
  | ⟨0, _⟩ =>
    show win0_0.index t 0 * 1536 + 1 * (j 0).val = win0_1.index t 0 * 1536 + 1 * (j 0).val
    rw [hi0]
  | ⟨1, _⟩ =>
    show win0_0.index t 1 * 1024 + 1 * k.val = k.val
    rw [hi1]; omega

end Cert.KernelIdeal.Blocks

end
-- ==== Proof.Data.lean ====
/-
  The pipeline's proof data at the ideal values, the body's obligation at every grid point, and the run.

  After the body at point `t` the input staging buffer holds the array's block `t` on the rows inside the array,
  and the output staging buffer holds block `t` of `rowSums x` there; past the array's end (the last point's 512
  overhanging rows) the data says zero, and the obligation of a clipped window asks nothing of those rows. At
  every point the input buffer arrives just fetched (its block, anything past the array's end) and the output
  buffer arrives at contents nothing names (first point, or just written back); the body leaves the input as it
  found it and the output at the stored payload, which on the moved rows is the block of `rowSums x`
  (`Blocks.stored_rows`).
-/
import proofs.«405345_j11218454577795_3_alg».proof.Proof.Blocks

set_option maxRecDepth 16384

noncomputable section

namespace Cert.KernelIdeal.Blocks

open Cert.KernelIdeal Cert.KernelIdeal.Gen Cert.KernelIdeal.Body Cert.KernelIdeal.RowSums
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The proof data of the one pipeline on core `c`: the arrays as the region finds them; after the body at point
    `t` the input buffer at the array's block and the output buffer at the block of `rowSums x`, each filled out with
    zero past the array's end; the class invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) ((win0_1.blk t).view.read (Elt Ideal) (rowSums (xarr m c)))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) :
    (dats m 0 c).after 0 t = win0_0.fill (grid0.coords t) (fun _ => (0 : EReal)) (iblk m c 0 t) := by dsimp only [dats]
theorem after1 (c : Dev nD) (t : Fin cfg0.N) :
    (dats m 0 c).after 1 t
      = win0_1.fill (grid0.coords t) (fun _ => (0 : EReal)) ((win0_1.blk t).view.read (Elt Ideal) (rowSums (xarr m c))) := by
  dsimp only [dats]

/-- The input buffer is fetched at every point: it holds the array's block where the fetch filled it, `d` elsewhere. -/
theorem before0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- The output buffer is written back at every point: at each it arrives holding contents nothing names. -/
theorem before1 (c : Dev nD) (t : Fin cfg0.N) (d) : (dats m 0 c).before 1 t d = d :=
  (dats m 0 c).before_out_reset 1 rfl t (by
    rcases Nat.eq_zero_or_pos t.val with h | h
    · exact .inl h
    · exact .inr ⟨by omega, flush0_1 _⟩) d

/-- The body at point `t`, from what the pipeline hands it to what a clipped window's obligation asks back. -/
theorem point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d)))
      ⊢ wp frame (wpE (defs₀ (F := Ideal)) Variants.none c none) Set.univ (bodyAt0 t) (fun _ =>
          iprop((dats m 0 c).Φ t.succ ∗ (dats m 0 c).owesAt () t.succ
            ∗ (∃ d, owns (c : Thread nD τ) (st0_0 t) fullShare
                (win0_0.fill (grid0.coords t) d (win0_0.cut (grid0.coords t) ((dats m 0 c).after 0 t))))
            ∗ (∃ d, owns (c : Thread nD τ) (st0_1 t) fullShare
                (win0_1.fill (grid0.coords t) d (win0_1.cut (grid0.coords t) ((dats m 0 c).after 1 t)))))) := by
  unfold bodyAt0
  rw [show (dats m 0 c).Φ t.succ = (dats m 0 c).Φ t.castSucc from rfl,
    show (dats m 0 c).owesAt () t.succ = (dats m 0 c).owesAt () t.castSucc from rfl,
    after0, after1, Window.cut_fill, Window.cut_fill]
  iintro ⟨HΦ, Ho, ⟨%d0, H0⟩, ⟨%d1, H1⟩⟩
  rw [before0 m c t d0, before1 m c t d1]
  iapply (sound_kernel c Set.univ (grid0.coords t) _ _ _ _ (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  isplitl [H0]
  · iexists d0; iexact H0
  · iexists stored (F := Ideal) (win0_0.fill (grid0.coords t) d0 (iblk m c 0 t))
    rw [← stored_rows m c t d0, Window.fill_cut]
    iexact H1

/-- The library's obligation, at every point: both windows are clipped, so each buffer is handed back stated on
    the rows its transfers move. -/
theorem body_obligation (c : Dev nD) :
    BodyObligationLoose (dats m 0 c) (defs₀ (F := Ideal)) Variants.none () Set.univ := fun t => by
  rw [bigSep_W0, bigSep_W0]
  exact point m c t

set_option backward.isDefEq.respectTransparency.types false in
/-- Every weakly fair execution of the idealized kernel terminates, faulting nowhere, with every array of the
    pipeline at what the library computes from the proof data. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The idealized kernel's frame: it runs, and the argument array ends unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Blocks

end
-- ==== Proof.Final.lean ====
/-
  The result array after the run: `rowSums x`.

  Every grid point writes its output block back, and what it writes — the staging buffer's rows inside the array —
  is the block of `rowSums x` (the proof data's own statement). Point `t` covers rows `1536·t` up to
  `min (1536·t + 1536) 65536` and all 1024 lanes; row `r` is covered by point `r / 1536`, which is below 43 because
  `r < 65536 = 42·1536 + 1024`. So the 43 write-backs tile the array and it ends holding `rowSums x` everywhere.
-/
import proofs.«405345_j11218454577795_3_alg».proof.Proof.Data

set_option maxRecDepth 16384

noncomputable section

namespace Cert.KernelIdeal.Blocks

open Cert.KernelIdeal Cert.KernelIdeal.Gen Cert.KernelIdeal.Body Cert.KernelIdeal.RowSums
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- What point `t` writes back is block `t` of `rowSums x`. -/
theorem flushed_rows (c : Dev nD) (t : Fin cfg0.N) :
    (dats m 0 c).flushed 1 t = ((cfg0.win 1).blk t).view.read (Elt Ideal) (rowSums (xarr m c)) := by
  show win0_1.cut (grid0.coords t) ((dats m 0 c).after 1 t) = _
  rw [after1, Window.cut_fill]

/-- Where the output's blocks lie: point `t` starts at row `1536·t`, ends at the array's end if that comes first,
    and spans every lane. -/
theorem span_facts : ∀ t : Fin cfg0.N,
    win0_1.index t 0 = t.val ∧ t.val * 1536 + win0_1.xsize (grid0.coords t) 0 = min (t.val * 1536 + 1536) 65536
      ∧ win0_1.index t 1 = 0 ∧ win0_1.xsize (grid0.coords t) 1 = 1024 :=
  (by decide +kernel : ∀ t : Fin grid0.N, _)

/-- Every entry of the result array lies in some point's written-back block. -/
theorem covered (i : S65536x1024.Idx) :
    ∃ t : Fin cfg0.N, (cfg0.win 1).flush t = true ∧ i ∈ ((cfg0.win 1).blk t).view.set := by
  have h0 : (i 0).val < 65536 := (i 0).isLt
  have h1 : (i 1).val < 1024 := (i 1).isLt
  let t : Fin cfg0.N := ⟨(i 0).val / 1536, by rw [show cfg0.N = 43 from N_0]; omega⟩
  obtain ⟨hi0, hs0, hi1, hs1⟩ := span_facts t
  have ht : t.val = (i 0).val / 1536 := rfl
  refine ⟨t, flush0_1 t, ?_⟩
  show i ∈ ((View.whole main_v0).slice (win0_1.rect t)).set
  rw [View.set_slice_whole, Rect.mem_set_unit]
  intro a
  match a with
  | ⟨0, _⟩ =>
    show win0_1.index t 0 * 1536 ≤ (i 0).val ∧ (i 0).val < win0_1.index t 0 * 1536 + win0_1.xsize (grid0.coords t) 0
    rw [hi0]
    omega
  | ⟨1, _⟩ =>
    show win0_1.index t 1 * 1024 ≤ (i 1).val ∧ (i 1).val < win0_1.index t 1 * 1024 + win0_1.xsize (grid0.coords t) 1
    rw [hi1, hs1]
    omega

/-- The result array after every write-back. -/
theorem final (c : Dev nD) : (dats m 0 c).arrAt 1 cfg0.N = rowSums (xarr m c) :=
  (dats m 0 c).arrAt_eq_of_cover 1 (rowSums (xarr m c)) (fun t _ => flushed_rows m c t) covered

/-- Every weakly fair execution of the idealized kernel terminates with the result array at `rowSums x` and the
    argument array unchanged. -/
theorem run : θ_run defs (onTc (τ := τ) (main (F := Ideal))) ⟨m, fun _ => 0, ρ⟩ (fun r => ∀ c : Dev nD,
      r.2.mem ((c.tc : Thread nD τ).loc main_v0) = rowSums (m ((c.tc : Thread nD τ).loc main_arg0))
      ∧ r.2.mem ((c.tc : Thread nD τ).loc main_arg0) = m ((c.tc : Thread nD τ).loc main_arg0)) :=
  (θ_run defs _ _).mono (fun _ h c => ⟨((h c).1 1).trans (final m c),
      ((h c).1 0).trans (((dats m 0 c).arrAt_in 0 rfl _).trans ((A_eq m c 0).trans (V_main_arg0 m c)))⟩)
    (run_main m ρ)

end Cert.KernelIdeal.Blocks

end
-- ==== Proof.Reference.lean ====
/-
  The reference at the ideal values: each row's sum, repeated along the row.

  The reference adds up each row of `x` from the initial value zero (a vector of 65536), makes a column of it
  (65536 × 1) and repeats the column's entry along its row (65536 × 1024). Read at entry `(r, q)` through its three
  layout steps that is `0 + Σₖ x (r, k)`, and the zero word is the real number zero: the function `rowSums x` the
  kernel's result is shown to be.
-/
import proofs.«405345_j11218454577795_3_alg».proof.Proof.Gen.ReferenceIdeal.Run
import proofs.«405345_j11218454577795_3_alg».proof.Proof.Gen.ReferenceIdeal.Read
import proofs.«405345_j11218454577795_3_alg».proof.Proof.Blocks

noncomputable section

namespace Cert.ReferenceIdeal.RowSums

open Cert.ReferenceIdeal Cert.ReferenceIdeal.Gen Cert.ReferenceIdeal.Read
open Idealize.ShloMosaic

/-- The reference's result, as a function of the argument array, is `rowSums`. -/
theorem reference_rows (x : (⟨S65536x1024, .f32⟩ : BufTy).Contents (Elt Ideal)) :
    val_main_v2 (F := Ideal) x = Cert.KernelIdeal.Blocks.rowSums x := by
  funext i
  rw [val_main_v2_apply, val_main_v1_apply, val_main_v0_apply, val_main_cst_apply]
  unfold Cert.KernelIdeal.Blocks.rowSums
  show Ideal.ofBits .f32 0x00000000#32 + _ = _
  rw [Ideal.ofBits_zero_f32, zero_add]
  refine Finset.sum_congr rfl fun k _ => congrArg x (funext fun a => Fin.ext ?_)
  match a with
  | ⟨0, _⟩ => rfl
  | ⟨1, _⟩ => rfl

end Cert.ReferenceIdeal.RowSums

end
-- ==== Proof.lean ====
/-
  The kernel sums each row of a 65536 × 1024 array along its 1024 lanes and repeats the sum along the row, in
  43 row blocks of 1536 (the last one overhanging the array by 512 rows); the reference does the same with one
  whole-array sum and two broadcasts. The five claims:

  * the word-level kernel runs and leaves its argument unchanged (`Kernel.Body.frame`: relational proof data, the
    body run from any buffer contents);
  * the idealized kernel likewise (`KernelIdeal.Blocks.frame`);
  * the idealized reference likewise (its run, the result dropped);
  * the idealization rewrote nothing, so there is nothing to preserve;
  * at the ideal values both programs end with the result `rowSums x`: entry `(r, q)` is `Σₖ x (r, k)`. For the
    kernel this is the 43 write-backs tiling the array with blocks of that one function (`KernelIdeal.Blocks.run`),
    each row of a stored block depending on the same row of the fetched block alone; for the reference it is its
    operations read at an entry (`ReferenceIdeal.RowSums.reference_rows`). No law beyond reading a sum is used, so the
    precondition's finiteness is never opened.
-/
import proofs.«405345_j11218454577795_3_alg».proof.Defs
import proofs.«405345_j11218454577795_3_alg».proof.Proof.Gen.Kernel
import proofs.«405345_j11218454577795_3_alg».proof.Proof.Gen.KernelIdeal
import proofs.«405345_j11218454577795_3_alg».proof.Proof.Gen.ReferenceIdeal
import proofs.«405345_j11218454577795_3_alg».proof.Proof.Gen.Pre_finite_inputs
import proofs.«405345_j11218454577795_3_alg».proof.Proof.FrameWords
import proofs.«405345_j11218454577795_3_alg».proof.Proof.Final
import proofs.«405345_j11218454577795_3_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Body.frame (F := Bits) m ρ

theorem frame_kernel_ideal : Cert.frame_KernelIdeal := fun m ρ _ => Cert.KernelIdeal.Blocks.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both idealized programs, run from memories that agree on the argument, end with the result `rowSums x`. -/
theorem algebraic : Cert.algebraic_KernelIdeal_ReferenceIdeal := by
  intro m ρ m' ρ' _ hagree
  refine ⟨fun c => Cert.KernelIdeal.Blocks.rowSums (m ((c.tc : Thread Cert.KernelIdeal.nD Cert.KernelIdeal.τ).loc Cert.KernelIdeal.main_arg0)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  exact ((Cert.ReferenceIdeal.Read.val_main_v2_eq (F := Ideal) _).trans
    (Cert.ReferenceIdeal.RowSums.reference_rows _)).trans (congrArg Cert.KernelIdeal.Blocks.rowSums (hagree c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
